-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 33
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S16384x1024.size a
  hwx0_14 : ∀ i : grid0.Coords, EltTy.bits .f32 = 32 ∨ (Rect.block (s := S16384x1024) S512x1024.size (cc0_transform_14 i) (hinb0_14 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S1024x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1024x1024, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Cell.lean ====
/-
  One row of a gated recurrent cell, on the extended reals.

  From a row `xr` of the input and the same row `hr` of the previous state, six weight matrices read as
  `M k q` (input feature `k`, output feature `q`) and six bias rows, the cell computes

      r q   = σ (xr · Wr[:, q] + hr · Ur[:, q] + bWr q + bUr q)          the reset gate
      u q   = σ (xr · Wu[:, q] + hr · Uu[:, q] + bWu q + bUu q)          the update gate
      c q   = tanh (xr · W[:, q] + (hr ⊙ r) · U[:, q] + bW q + bU q)     the candidate state
      out q = (1 - u q) * hr q + u q * c q                               the blend

  with σ x = 1 / (1 + e^(-x)), every dot product a sum over the 1024 input features, and every operation the
  extended reals' own. The candidate's second dot product reads the reset gate at EVERY feature `k` of the row,
  not only at `q`: that is why the cell is a function of whole rows.

  The two programs differ in where a gate's first bias is added — after both dot products, or between them.
  Addition on the extended reals is commutative and associative at the infinities too, so the two orders agree
  (`pre_bias_between`) and no finiteness of the inputs is used anywhere.

  `G` is the cell applied to every row of two [16384, 1024] arrays, with the weights stored [output, input]
  (so the matrix the cell reads at `k q` is the stored one at `q k`) and the biases stored as [1024] vectors.
-/
import Idealize.ShloMosaic.PureOps.Ideal
import Idealize.ShloMosaic.Lib.ValueIdx

noncomputable section

open scoped BigOperators

namespace Cert.Cell

open Idealize.ShloMosaic Idealize.ShloMosaic.ValueIdx

/-- A rank-2 index is the one built from two coordinates as soon as its coordinates have their values. -/
theorem ix2_of {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- A rank-1 index is the one built from a coordinate as soon as its coordinate has that value. -/
theorem ix1_of {n : Nat} (f : (⟨1, ![n]⟩ : Shape).Idx) (a : Fin n) (h0 : (f 0).val = a.val) : f = ix1 a :=
  funext fun d => Fin.ext (by match d with | ⟨0, _⟩ => exact h0)

/-- The float pattern of 1.0 is the real number one. -/
theorem one_f32 : Ideal.ofBits .f32 0x3F800000#32 = (1 : EReal) := by
  simp [Ideal.ofBits, Ideal.ieee, -EReal.coe_mul]; norm_num

/-- A gate's pre-activation at output feature `q`: the input row against column `q` of the first matrix, the
    state row against column `q` of the second, then the two biases. -/
def pre (xr hr : Fin 1024 → EReal) (Wt Ut : Fin 1024 → Fin 1024 → EReal) (bW bU : Fin 1024 → EReal)
    (q : Fin 1024) : EReal :=
  (∑ k : Fin 1024, xr k * Wt k q) + (∑ k : Fin 1024, hr k * Ut k q) + bW q + bU q

/-- Adding the first bias between the two dot products gives the same pre-activation. -/
theorem pre_bias_between (xr hr : Fin 1024 → EReal) (Wt Ut : Fin 1024 → Fin 1024 → EReal)
    (bW bU : Fin 1024 → EReal) (q : Fin 1024) :
    (∑ k : Fin 1024, xr k * Wt k q) + bW q + (∑ k : Fin 1024, hr k * Ut k q) + bU q
      = pre xr hr Wt Ut bW bU q := by
  unfold pre
  rw [add_right_comm (∑ k : Fin 1024, xr k * Wt k q) (bW q)]

/-- The logistic function written out with the float pattern of 1.0, as a host program spells it. -/
theorem logistic_spelled (z : EReal) :
    Ideal.div (Ideal.ofBits .f32 0x3F800000#32) (Ideal.ofBits .f32 0x3F800000#32 + Ideal.exp (-z))
      = Ideal.logistic z := by
  rw [one_f32]; rfl

/-- The reset gate of a row, at feature `k`. -/
def reset (xr hr : Fin 1024 → EReal) (Wr Ur : Fin 1024 → Fin 1024 → EReal) (bWr bUr : Fin 1024 → EReal)
    (k : Fin 1024) : EReal :=
  Ideal.logistic (pre xr hr Wr Ur bWr bUr k)

/-- The new state of a row, at feature `q`. -/
def row (xr hr : Fin 1024 → EReal) (Wr Ur Wu Uu W U : Fin 1024 → Fin 1024 → EReal)
    (bWr bUr bWu bUu bW bU : Fin 1024 → EReal) (q : Fin 1024) : EReal :=
  (Ideal.ofBits .f32 0x3F800000#32 - Ideal.logistic (pre xr hr Wu Uu bWu bUu q)) * hr q
    + Ideal.logistic (pre xr hr Wu Uu bWu bUu q)
      * Ideal.tanh (pre xr (fun k => hr k * reset xr hr Wr Ur bWr bUr k) W U bW bU q)

/-- Arrays of activations, of weights stored [output, input], and of biases. -/
abbrev Act := (⟨2, ![16384, 1024]⟩ : Shape).Idx → EReal
abbrev Wgt := (⟨2, ![1024, 1024]⟩ : Shape).Idx → EReal
abbrev Bias := (⟨1, ![1024]⟩ : Shape).Idx → EReal

/-- A stored weight matrix as the cell reads it: `k q ↦ M[q, k]`. -/
abbrev tr (M : Wgt) : Fin 1024 → Fin 1024 → EReal := fun k q => M (ix2 (n0 := 1024) (n1 := 1024) q k)

/-- A stored bias vector as a row. -/
abbrev vec (b : Bias) : Fin 1024 → EReal := fun q => b (ix1 (n := 1024) q)

/-- Row `p` of an activation array. -/
abbrev rowOf (a : Act) (p : Fin 16384) : Fin 1024 → EReal := fun k => a (ix2 (n0 := 16384) (n1 := 1024) p k)

/-- The cell applied to every row: the new state array, index by index, in the order of the programs'
    arguments (input, state, then each matrix followed by its bias). -/
def G (x h : Act) (Wr : Wgt) (bWr : Bias) (Ur : Wgt) (bUr : Bias) (Wu : Wgt) (bWu : Bias) (Uu : Wgt)
    (bUu : Bias) (W : Wgt) (bW : Bias) (U : Wgt) (bU : Bias) : Act := fun i =>
  row (rowOf x (i 0)) (rowOf h (i 0)) (tr Wr) (tr Ur) (tr Wu) (tr Uu) (tr W) (tr U)
    (vec bWr) (vec bUr) (vec bWu) (vec bUu) (vec bW) (vec bU) (i 1)

end Cert.Cell

end
-- ==== Proof.Body.lean ====
/-
  The kernel body's stored value, read at one element of its block.

  At a grid point the body loads a [512, 1024] block of the input and of the state, six [1024, 1024] matrices and
  six [1, 1024] bias rows, and stores one [512, 1024] block. Read at the block's element `(p, q)` on the extended
  reals, where a change of float format is the identity:

  * a matrix product into the zero accumulator is the sum over the contracted feature `k` of the left operand at
    `(p, k)` times the right at `(k, q)` (`matmul_at`);
  * a bias row broadcast over the 512 rows is the row's entry at `q` (`bias_at`);
  * so each gate's pre-activation is `Cell.pre` of row `p` of the two activation blocks, and the stored value is
    `Cell.row` of those rows at `q` (`stored_at`).

  The candidate's second product contracts the state row times the reset gate, and the reset gate at `(p, k)` is
  again a function of row `p` only: the whole stored row depends on row `p` of the two activation blocks alone.
-/
import proofs.«147010_j40621800686224_1_alg».proof.Proof.Gen.KernelIdeal.Skeleton
import proofs.«147010_j40621800686224_1_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand indices, axis by axis -/

theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512, 1024] by [1024, 1024] product into the zero accumulator, at `(p, q)`: row `p` against column `q`. -/
theorem matmul_at (a : FVec Ideal S512x1024 .bf16) (b : FVec Ideal S1024x1024 .bf16) (p : Fin 512) (q : Fin 1024) :
    FloatOps.matmul dot_S512x1024_S1024x1024_S512x1024_1_0_0_1_n_n none a b (constant (F := Ideal) S512x1024 .f32 0x00000000#32) (ix2 p q)
      = ∑ k : Fin 1024, a (ix2 p k) * b (ix2 k q) := by
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- A bias row (after its identity shape cast) broadcast over the block's rows, at `(p, q)`. -/
theorem bias_at (b : FVec Ideal S1x1024 .f32) (p : Fin 512) (q : Fin 1024) :
    broadcastTo S512x1024 (shapeCast S1x1024 b shapeCasts_S1x1024_S1x1024) broadcasts_S1x1024_S512x1024 (ix2 p q)
      = b (ix2 (0 : Fin 1) q) := by
  rw [shapeCast_self]
  exact broadcastTo_1b_ab_apply b broadcasts_S1x1024_S512x1024 p q

/-- A gate's pre-activation as the body computes it — two products into zero accumulators, then the two broadcast
    biases — at `(p, q)`. -/
theorem pre_at (a h : FVec Ideal S512x1024 .bf16) (w u : FVec Ideal S1024x1024 .bf16) (bw bu : FVec Ideal S1x1024 .f32)
    (p : Fin 512) (q : Fin 1024) :
    addf (addf (addf
        (matmul dot_S512x1024_S1024x1024_S512x1024_1_0_0_1_n_n none a (shapeCast S1024x1024 w shapeCasts_S1024x1024_S1024x1024) (constant (F := Ideal) S512x1024 .f32 0x00000000#32))
        (matmul dot_S512x1024_S1024x1024_S512x1024_1_0_0_1_n_n none h (shapeCast S1024x1024 u shapeCasts_S1024x1024_S1024x1024) (constant (F := Ideal) S512x1024 .f32 0x00000000#32)))
        (broadcastTo S512x1024 (shapeCast S1x1024 bw shapeCasts_S1x1024_S1x1024) broadcasts_S1x1024_S512x1024))
        (broadcastTo S512x1024 (shapeCast S1x1024 bu shapeCasts_S1x1024_S1x1024) broadcasts_S1x1024_S512x1024) (ix2 p q)
      = Cell.pre (fun k => a (ix2 p k)) (fun k => h (ix2 p k)) (fun k q => w (ix2 k q)) (fun k q => u (ix2 k q))
          (fun q => bw (ix2 (0 : Fin 1) q)) (fun q => bu (ix2 (0 : Fin 1) q)) q := by
  rw [addf_apply, addf_apply, addf_apply, bias_at, bias_at]
  simp only [matmul]
  rw [shapeCast_self, shapeCast_self, matmul_at, matmul_at]
  rfl

/-! ## The body's payloads -/

/-- The hyperbolic tangent of a block, at an element. -/
theorem tanh_at {s : Shape} {φ : FTy} (v : FVec Ideal s φ) (i : s.Idx) : tanh v i = Ideal.tanh (v i) := rfl
/-- The logistic function of a block, at an element. -/
theorem logistic_at {s : Shape} {φ : FTy} (v : FVec Ideal s φ) (i : s.Idx) : logistic v i = Ideal.logistic (v i) := rfl

/-- The reset gate the body keeps, at `(p, q)`: the logistic of the first pre-activation. -/
theorem reset_at (x0 x1 : Vec Ideal S512x1024 .f32) (x2 x4 : Vec Ideal S1024x1024 .bf16) (x3 x5 : Vec Ideal S1x1024 .f32)
    (p : Fin 512) (q : Fin 1024) :
    k0_pay4 (F := Ideal) x0 x1 x2 x4 x3 x5 (ix2 p q)
      = Cell.reset (fun k => x0 (ix2 p k)) (fun k => x1 (ix2 p k)) (fun k q => x2 (ix2 k q)) (fun k q => x4 (ix2 k q))
          (fun q => x3 (ix2 (0 : Fin 1) q)) (fun q => x5 (ix2 (0 : Fin 1) q)) q := by
  unfold k0_pay4 Cell.reset
  refine congrArg Ideal.logistic ?_
  exact pre_at (k0_pay2 x0) (k0_pay3 x1) x2 x4 x3 x5 p q

/-- The update gate's pre-activation the body keeps, at `(p, q)`. -/
theorem update_pre_at (x0 x1 : Vec Ideal S512x1024 .f32) (x6 x8 : Vec Ideal S1024x1024 .bf16) (x7 x9 : Vec Ideal S1x1024 .f32)
    (p : Fin 512) (q : Fin 1024) :
    k0_pay5 (F := Ideal) x0 x1 x6 x8 x7 x9 (ix2 p q)
      = Cell.pre (fun k => x0 (ix2 p k)) (fun k => x1 (ix2 p k)) (fun k q => x6 (ix2 k q)) (fun k q => x8 (ix2 k q))
          (fun q => x7 (ix2 (0 : Fin 1) q)) (fun q => x9 (ix2 (0 : Fin 1) q)) q := by
  unfold k0_pay5
  exact pre_at (k0_pay2 x0) (k0_pay3 x1) x6 x8 x7 x9 p q

/-- The stored value from the kept pieces, at `(p, q)`: the blend of the state with the candidate, whose second
    product contracts the state row times the kept reset gate. -/
theorem blend_at (v1 : Vec Ideal S512x1024 .f32) (v2 : FVec Ideal S512x1024 .bf16) (v19 v34 : FVec Ideal S512x1024 .f32)
    (v38 v41 : Vec Ideal S1024x1024 .bf16) (v45 v49 : Vec Ideal S1x1024 .f32) (p : Fin 512) (q : Fin 1024) :
    k0_pay1 (F := Ideal) v1 v2 v19 v34 v38 v41 v45 v49 (ix2 p q)
      = (Ideal.ofBits .f32 0x3F800000#32 - Ideal.logistic (v34 (ix2 p q))) * v1 (ix2 p q)
        + Ideal.logistic (v34 (ix2 p q))
          * Ideal.tanh (Cell.pre (fun k => v2 (ix2 p k)) (fun k => v1 (ix2 p k) * v19 (ix2 p k))
              (fun k q => v38 (ix2 k q)) (fun k q => v41 (ix2 k q))
              (fun q => v45 (ix2 (0 : Fin 1) q)) (fun q => v49 (ix2 (0 : Fin 1) q)) q) := by
  unfold k0_pay1
  rw [addf_apply, mulf_apply, mulf_apply, subf_apply, tanh_at, logistic_at,
    pre_at v2 (truncf .bf16 (mulf v1 v19) bitsLt_bf16_f32) v38 v41 v45 v49 p q]
  rfl

/-- THE STORED VALUE at `(p, q)` is the cell's new state for row `p` of the two activation blocks, at feature `q`. -/
theorem stored_at (x0 x1 : Vec Ideal S512x1024 .f32) (x2 : Vec Ideal S1024x1024 .bf16) (x3 : Vec Ideal S1x1024 .f32)
    (x4 : Vec Ideal S1024x1024 .bf16) (x5 : Vec Ideal S1x1024 .f32) (x6 : Vec Ideal S1024x1024 .bf16) (x7 : Vec Ideal S1x1024 .f32)
    (x8 : Vec Ideal S1024x1024 .bf16) (x9 : Vec Ideal S1x1024 .f32) (x10 : Vec Ideal S1024x1024 .bf16) (x11 : Vec Ideal S1x1024 .f32)
    (x12 : Vec Ideal S1024x1024 .bf16) (x13 : Vec Ideal S1x1024 .f32) (p : Fin 512) (q : Fin 1024) :
    k0_pay1 (F := Ideal) x1 (k0_pay2 x0) (k0_pay4 x0 x1 x2 x4 x3 x5) (k0_pay5 x0 x1 x6 x8 x7 x9) x10 x12 x11 x13 (ix2 p q)
      = Cell.row (fun k => x0 (ix2 p k)) (fun k => x1 (ix2 p k))
          (fun k q => x2 (ix2 k q)) (fun k q => x4 (ix2 k q)) (fun k q => x6 (ix2 k q)) (fun k q => x8 (ix2 k q))
          (fun k q => x10 (ix2 k q)) (fun k q => x12 (ix2 k q))
          (fun q => x3 (ix2 (0 : Fin 1) q)) (fun q => x5 (ix2 (0 : Fin 1) q)) (fun q => x7 (ix2 (0 : Fin 1) q))
          (fun q => x9 (ix2 (0 : Fin 1) q)) (fun q => x11 (ix2 (0 : Fin 1) q)) (fun q => x13 (ix2 (0 : Fin 1) q)) q := by
  rw [blend_at, update_pre_at]
  have hr : (fun k : Fin 1024 => x1 (ix2 p k) * k0_pay4 (F := Ideal) x0 x1 x2 x4 x3 x5 (ix2 p k))
      = fun k => x1 (ix2 p k) * Cell.reset (fun k => x0 (ix2 p k)) (fun k => x1 (ix2 p k)) (fun k q => x2 (ix2 k q))
          (fun k q => x4 (ix2 k q)) (fun q => x3 (ix2 (0 : Fin 1) q)) (fun q => x5 (ix2 (0 : Fin 1) q)) k :=
    funext fun k => by rw [reset_at]
  rw [hr]
  rfl

end Cert.KernelIdeal.Body

end
-- ==== Proof.Blocks.lean ====
/-
  From what each grid point writes back to the whole result array.

  The grid has 32 points. Point `t` stages rows `512 t … 512 t + 511` of the input and of the state (all 1024
  columns), the six matrices and the six bias rows whole, and writes back rows `512 t … 512 t + 511` of the result.
  Before the region the host transposes each stored [output, input] matrix (and narrows it to bf16, the identity on
  the extended reals) and gives each bias a leading unit axis, so a matrix window at `(k, q)` holds the stored
  weight at `(q, k)` and a bias window at `(0, q)` holds the bias at `q`.

  With the body's stored value read at an element (`Body.stored_at`), the block point `t` writes back is block `t`
  of `Cell.G` of the argument arrays (`flushed_eq`); the 32 blocks tile the 16384 rows (`cover`); so the result
  array ends holding `Cell.G` of the argument arrays (`final`, `run`).
-/
import proofs.«147010_j40621800686224_1_alg».proof.Proof.Gen.KernelIdeal.Value
import proofs.«147010_j40621800686224_1_alg».proof.Proof.Body
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.Cell Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The windows' block indices over the grid -/

/-- The activation windows and the result window move down one block of rows per point; every other window stays
    at its one block. Decided over the 32 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_14.index t (0 : Fin 2) = t.val ∧ win0_14.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-! ## The matrix and bias windows' arrays as the region finds them -/

/-- Window 2's array is argument 2's matrix transposed. -/
theorem V_v1 (c : Dev nD) : V m c main_v1
    = (truncf (F := Ideal) .bf16 (transpose S1024x1024 [1, 0] (m ((c : Thread nD τ).loc main_arg2)) transposes_S1024x1024_S1024x1024_1_0) bitsLt_bf16_f32 : S1024x1024.Idx → EReal) := by
  dsimp only [V, hostOps0]; after_results
theorem V_v1_at (c : Dev nD) (k q : Fin 1024) :
    (V m c main_v1 : S1024x1024.Idx → EReal) (ix2 k q) = tr (m ((c : Thread nD τ).loc main_arg2)) k q := by
  rw [V_v1]; exact transpose_ix2_apply _ _ k q

/-- Window 4's array is argument 4's matrix transposed. -/
theorem V_v3 (c : Dev nD) : V m c main_v3
    = (truncf (F := Ideal) .bf16 (transpose S1024x1024 [1, 0] (m ((c : Thread nD τ).loc main_arg4)) transposes_S1024x1024_S1024x1024_1_0) bitsLt_bf16_f32 : S1024x1024.Idx → EReal) := by
  dsimp only [V, hostOps0]; after_results
theorem V_v3_at (c : Dev nD) (k q : Fin 1024) :
    (V m c main_v3 : S1024x1024.Idx → EReal) (ix2 k q) = tr (m ((c : Thread nD τ).loc main_arg4)) k q := by
  rw [V_v3]; exact transpose_ix2_apply _ _ k q

/-- Window 6's array is argument 6's matrix transposed. -/
theorem V_v5 (c : Dev nD) : V m c main_v5
    = (truncf (F := Ideal) .bf16 (transpose S1024x1024 [1, 0] (m ((c : Thread nD τ).loc main_arg6)) transposes_S1024x1024_S1024x1024_1_0) bitsLt_bf16_f32 : S1024x1024.Idx → EReal) := by
  dsimp only [V, hostOps0]; after_results
theorem V_v5_at (c : Dev nD) (k q : Fin 1024) :
    (V m c main_v5 : S1024x1024.Idx → EReal) (ix2 k q) = tr (m ((c : Thread nD τ).loc main_arg6)) k q := by
  rw [V_v5]; exact transpose_ix2_apply _ _ k q

/-- Window 8's array is argument 8's matrix transposed. -/
theorem V_v7 (c : Dev nD) : V m c main_v7
    = (truncf (F := Ideal) .bf16 (transpose S1024x1024 [1, 0] (m ((c : Thread nD τ).loc main_arg8)) transposes_S1024x1024_S1024x1024_1_0) bitsLt_bf16_f32 : S1024x1024.Idx → EReal) := by
  dsimp only [V, hostOps0]; after_results
theorem V_v7_at (c : Dev nD) (k q : Fin 1024) :
    (V m c main_v7 : S1024x1024.Idx → EReal) (ix2 k q) = tr (m ((c : Thread nD τ).loc main_arg8)) k q := by
  rw [V_v7]; exact transpose_ix2_apply _ _ k q

/-- Window 10's array is argument 10's matrix transposed. -/
theorem V_v9 (c : Dev nD) : V m c main_v9
    = (truncf (F := Ideal) .bf16 (transpose S1024x1024 [1, 0] (m ((c : Thread nD τ).loc main_arg10)) transposes_S1024x1024_S1024x1024_1_0) bitsLt_bf16_f32 : S1024x1024.Idx → EReal) := by
  dsimp only [V, hostOps0]; after_results
theorem V_v9_at (c : Dev nD) (k q : Fin 1024) :
    (V m c main_v9 : S1024x1024.Idx → EReal) (ix2 k q) = tr (m ((c : Thread nD τ).loc main_arg10)) k q := by
  rw [V_v9]; exact transpose_ix2_apply _ _ k q

/-- Window 12's array is argument 12's matrix transposed. -/
theorem V_v11 (c : Dev nD) : V m c main_v11
    = (truncf (F := Ideal) .bf16 (transpose S1024x1024 [1, 0] (m ((c : Thread nD τ).loc main_arg12)) transposes_S1024x1024_S1024x1024_1_0) bitsLt_bf16_f32 : S1024x1024.Idx → EReal) := by
  dsimp only [V, hostOps0]; after_results
theorem V_v11_at (c : Dev nD) (k q : Fin 1024) :
    (V m c main_v11 : S1024x1024.Idx → EReal) (ix2 k q) = tr (m ((c : Thread nD τ).loc main_arg12)) k q := by
  rw [V_v11]; exact transpose_ix2_apply _ _ k q

/-- Window 3's array is argument 3's bias with a leading unit axis. -/
theorem V_v12 (c : Dev nD) : (V m c main_v12 : S1x1024.Idx → EReal)
    = shapeCast S1x1024 (m ((c : Thread nD τ).loc main_arg3)) shapeCasts_S1024_S1x1024 := by
  dsimp only [V, hostOps0]; after_results; rfl
theorem V_v12_at (c : Dev nD) (q : Fin 1024) :
    (V m c main_v12 : S1x1024.Idx → EReal) (ix2 (0 : Fin 1) q) = vec (m ((c : Thread nD τ).loc main_arg3)) q := by
  rw [V_v12]; exact shapeCast_a_1a_apply _ _ 0 q

/-- Window 5's array is argument 5's bias with a leading unit axis. -/
theorem V_v13 (c : Dev nD) : (V m c main_v13 : S1x1024.Idx → EReal)
    = shapeCast S1x1024 (m ((c : Thread nD τ).loc main_arg5)) shapeCasts_S1024_S1x1024 := by
  dsimp only [V, hostOps0]; after_results; rfl
theorem V_v13_at (c : Dev nD) (q : Fin 1024) :
    (V m c main_v13 : S1x1024.Idx → EReal) (ix2 (0 : Fin 1) q) = vec (m ((c : Thread nD τ).loc main_arg5)) q := by
  rw [V_v13]; exact shapeCast_a_1a_apply _ _ 0 q

/-- Window 7's array is argument 7's bias with a leading unit axis. -/
theorem V_v14 (c : Dev nD) : (V m c main_v14 : S1x1024.Idx → EReal)
    = shapeCast S1x1024 (m ((c : Thread nD τ).loc main_arg7)) shapeCasts_S1024_S1x1024 := by
  dsimp only [V, hostOps0]; after_results; rfl
theorem V_v14_at (c : Dev nD) (q : Fin 1024) :
    (V m c main_v14 : S1x1024.Idx → EReal) (ix2 (0 : Fin 1) q) = vec (m ((c : Thread nD τ).loc main_arg7)) q := by
  rw [V_v14]; exact shapeCast_a_1a_apply _ _ 0 q

/-- Window 9's array is argument 9's bias with a leading unit axis. -/
theorem V_v15 (c : Dev nD) : (V m c main_v15 : S1x1024.Idx → EReal)
    = shapeCast S1x1024 (m ((c : Thread nD τ).loc main_arg9)) shapeCasts_S1024_S1x1024 := by
  dsimp only [V, hostOps0]; after_results; rfl
theorem V_v15_at (c : Dev nD) (q : Fin 1024) :
    (V m c main_v15 : S1x1024.Idx → EReal) (ix2 (0 : Fin 1) q) = vec (m ((c : Thread nD τ).loc main_arg9)) q := by
  rw [V_v15]; exact shapeCast_a_1a_apply _ _ 0 q

/-- Window 11's array is argument 11's bias with a leading unit axis. -/
theorem V_v16 (c : Dev nD) : (V m c main_v16 : S1x1024.Idx → EReal)
    = shapeCast S1x1024 (m ((c : Thread nD τ).loc main_arg11)) shapeCasts_S1024_S1x1024 := by
  dsimp only [V, hostOps0]; after_results; rfl
theorem V_v16_at (c : Dev nD) (q : Fin 1024) :
    (V m c main_v16 : S1x1024.Idx → EReal) (ix2 (0 : Fin 1) q) = vec (m ((c : Thread nD τ).loc main_arg11)) q := by
  rw [V_v16]; exact shapeCast_a_1a_apply _ _ 0 q

/-- Window 13's array is argument 13's bias with a leading unit axis. -/
theorem V_v17 (c : Dev nD) : (V m c main_v17 : S1x1024.Idx → EReal)
    = shapeCast S1x1024 (m ((c : Thread nD τ).loc main_arg13)) shapeCasts_S1024_S1x1024 := by
  dsimp only [V, hostOps0]; after_results; rfl
theorem V_v17_at (c : Dev nD) (q : Fin 1024) :
    (V m c main_v17 : S1x1024.Idx → EReal) (ix2 (0 : Fin 1) q) = vec (m ((c : Thread nD τ).loc main_arg13)) q := by
  rw [V_v17]; exact shapeCast_a_1a_apply _ _ 0 q

/-! ## What a point writes back -/

/-- The body's stored value at an element `y` of its block is `G` of whole arrays at an array index `i` in the same
    column, as soon as row `y 0` of each activation block is row `i 0` of its array, each matrix block at `(k, q)` is
    the stored matrix at `(q, k)`, and each bias block at `(0, q)` is the stored bias at `q`. -/
theorem stored_eq_G (x0 x1 : Vec Ideal S512x1024 .f32) (x2 : Vec Ideal S1024x1024 .bf16) (x3 : Vec Ideal S1x1024 .f32)
    (x4 : Vec Ideal S1024x1024 .bf16) (x5 : Vec Ideal S1x1024 .f32) (x6 : Vec Ideal S1024x1024 .bf16) (x7 : Vec Ideal S1x1024 .f32)
    (x8 : Vec Ideal S1024x1024 .bf16) (x9 : Vec Ideal S1x1024 .f32) (x10 : Vec Ideal S1024x1024 .bf16) (x11 : Vec Ideal S1x1024 .f32)
    (x12 : Vec Ideal S1024x1024 .bf16) (x13 : Vec Ideal S1x1024 .f32)
    (a0 a1 : Act) (a2 : Wgt) (a3 : Bias) (a4 : Wgt) (a5 : Bias) (a6 : Wgt) (a7 : Bias) (a8 : Wgt) (a9 : Bias)
    (a10 : Wgt) (a11 : Bias) (a12 : Wgt) (a13 : Bias) (y : S512x1024.Idx) (i : S16384x1024.Idx)
    (hcol : (i 1).val = (y 1).val)
    (h0 : ∀ k : Fin 1024, x0 (ix2 (y 0) k) = rowOf a0 (i 0) k) (h1 : ∀ k : Fin 1024, x1 (ix2 (y 0) k) = rowOf a1 (i 0) k)
    (h2 : ∀ k q : Fin 1024, x2 (ix2 k q) = tr a2 k q) (h4 : ∀ k q : Fin 1024, x4 (ix2 k q) = tr a4 k q) (h6 : ∀ k q : Fin 1024, x6 (ix2 k q) = tr a6 k q) (h8 : ∀ k q : Fin 1024, x8 (ix2 k q) = tr a8 k q) (h10 : ∀ k q : Fin 1024, x10 (ix2 k q) = tr a10 k q) (h12 : ∀ k q : Fin 1024, x12 (ix2 k q) = tr a12 k q)
    (h3 : ∀ q : Fin 1024, x3 (ix2 (0 : Fin 1) q) = vec a3 q) (h5 : ∀ q : Fin 1024, x5 (ix2 (0 : Fin 1) q) = vec a5 q) (h7 : ∀ q : Fin 1024, x7 (ix2 (0 : Fin 1) q) = vec a7 q) (h9 : ∀ q : Fin 1024, x9 (ix2 (0 : Fin 1) q) = vec a9 q) (h11 : ∀ q : Fin 1024, x11 (ix2 (0 : Fin 1) q) = vec a11 q) (h13 : ∀ q : Fin 1024, x13 (ix2 (0 : Fin 1) q) = vec a13 q) :
    k0_pay1 (F := Ideal) x1 (k0_pay2 x0) (k0_pay4 x0 x1 x2 x4 x3 x5) (k0_pay5 x0 x1 x6 x8 x7 x9) x10 x12 x11 x13 y
      = G a0 a1 a2 a3 a4 a5 a6 a7 a8 a9 a10 a11 a12 a13 i := by
  obtain ⟨p, q, rfl⟩ : ∃ (p : Fin 512) (q : Fin 1024), y = ix2 p q := ⟨y 0, y 1, eq_ix2 y⟩
  rw [Body.stored_at]
  have e0 : (fun k : Fin 1024 => x0 (ix2 p k)) = rowOf a0 (i 0) := funext h0
  have e1 : (fun k : Fin 1024 => x1 (ix2 p k)) = rowOf a1 (i 0) := funext h1
  have e2 : (fun k q : Fin 1024 => x2 (ix2 k q)) = tr a2 := funext fun k => funext fun q => h2 k q
  have e4 : (fun k q : Fin 1024 => x4 (ix2 k q)) = tr a4 := funext fun k => funext fun q => h4 k q
  have e6 : (fun k q : Fin 1024 => x6 (ix2 k q)) = tr a6 := funext fun k => funext fun q => h6 k q
  have e8 : (fun k q : Fin 1024 => x8 (ix2 k q)) = tr a8 := funext fun k => funext fun q => h8 k q
  have e10 : (fun k q : Fin 1024 => x10 (ix2 k q)) = tr a10 := funext fun k => funext fun q => h10 k q
  have e12 : (fun k q : Fin 1024 => x12 (ix2 k q)) = tr a12 := funext fun k => funext fun q => h12 k q
  have e3 : (fun q : Fin 1024 => x3 (ix2 (0 : Fin 1) q)) = vec a3 := funext h3
  have e5 : (fun q : Fin 1024 => x5 (ix2 (0 : Fin 1) q)) = vec a5 := funext h5
  have e7 : (fun q : Fin 1024 => x7 (ix2 (0 : Fin 1) q)) = vec a7 := funext h7
  have e9 : (fun q : Fin 1024 => x9 (ix2 (0 : Fin 1) q)) = vec a9 := funext h9
  have e11 : (fun q : Fin 1024 => x11 (ix2 (0 : Fin 1) q)) = vec a11 := funext h11
  have e13 : (fun q : Fin 1024 => x13 (ix2 (0 : Fin 1) q)) = vec a13 := funext h13
  have eq : q = i 1 := Fin.ext hcol.symm
  subst eq
  rw [e0, e1, e2, e3, e4, e5, e6, e7, e8, e9, e10, e11, e12, e13]
  rfl

theorem hz : (![0, 0] : Fin 2 → Nat) = fun _ => 0 := funext fun a => by fin_cases a <;> rfl

/-- `G` of the argument arrays as launched, on core `c`. -/
abbrev Garr (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- Row `y 0` of an activation window's block at point `t` is the row of the argument array that the result
    window's block puts `y` in. -/
theorem act0_row (c : Dev nD) (t : Fin cfg0.N) (y : S512x1024.Idx) (k : Fin 1024) :
    iblk m c 0 t (ix2 (y 0) k) = rowOf (m ((c : Thread nD τ).loc main_arg0)) ((((cfg0.win 14).blk t).view.emb y) 0) k := by
  obtain ⟨f0, f1, -, -, f4, f5, -⟩ := idx_facts t
  show V m c main_arg0 (((cfg0.win 0).blk t).view.emb (ix2 (y 0) k)) = _
  rw [V_main_arg0]
  refine congrArg (m ((c : Thread nD τ).loc main_arg0)) (funext fun a => Fin.ext ?_)
  match a with
  | ⟨0, _⟩ => show win0_0.index t (0 : Fin 2) * 512 + 1 * (y 0).val = win0_14.index t (0 : Fin 2) * 512 + 1 * (y 0).val; omega
  | ⟨1, _⟩ => show win0_0.index t (1 : Fin 2) * 1024 + 1 * k.val = k.val; omega
theorem act1_row (c : Dev nD) (t : Fin cfg0.N) (y : S512x1024.Idx) (k : Fin 1024) :
    iblk m c 1 t (ix2 (y 0) k) = rowOf (m ((c : Thread nD τ).loc main_arg1)) ((((cfg0.win 14).blk t).view.emb y) 0) k := by
  obtain ⟨-, -, f2, f3, f4, f5, -⟩ := idx_facts t
  show V m c main_arg1 (((cfg0.win 1).blk t).view.emb (ix2 (y 0) k)) = _
  rw [V_main_arg1]
  refine congrArg (m ((c : Thread nD τ).loc main_arg1)) (funext fun a => Fin.ext ?_)
  match a with
  | ⟨0, _⟩ => show win0_1.index t (0 : Fin 2) * 512 + 1 * (y 0).val = win0_14.index t (0 : Fin 2) * 512 + 1 * (y 0).val; omega
  | ⟨1, _⟩ => show win0_1.index t (1 : Fin 2) * 1024 + 1 * k.val = k.val; omega

/-- The matrix window 2 has one block, the whole transposed matrix. -/
theorem wblk2_at (c : Dev nD) (t : Fin cfg0.N) (k q : Fin 1024) :
    iblk m c 2 t (ix2 k q) = tr (m ((c : Thread nD τ).loc main_arg2)) k q := by
  have F := idx_facts t
  show V m c main_v1 (((cfg0.win 2).blk t).view.emb (ix2 k q)) = _
  have e : ((cfg0.win 2).blk t).view.emb (ix2 k q) = ix2 k q := funext fun a => Fin.ext (by
    match a with
    | ⟨0, _⟩ => show win0_2.index t (0 : Fin 2) * 1024 + 1 * k.val = k.val; omega
    | ⟨1, _⟩ => show win0_2.index t (1 : Fin 2) * 1024 + 1 * q.val = q.val; omega)
  rw [e]; exact V_v1_at m c k q

/-- The matrix window 4 has one block, the whole transposed matrix. -/
theorem wblk4_at (c : Dev nD) (t : Fin cfg0.N) (k q : Fin 1024) :
    iblk m c 4 t (ix2 k q) = tr (m ((c : Thread nD τ).loc main_arg4)) k q := by
  have F := idx_facts t
  show V m c main_v3 (((cfg0.win 4).blk t).view.emb (ix2 k q)) = _
  have e : ((cfg0.win 4).blk t).view.emb (ix2 k q) = ix2 k q := funext fun a => Fin.ext (by
    match a with
    | ⟨0, _⟩ => show win0_4.index t (0 : Fin 2) * 1024 + 1 * k.val = k.val; omega
    | ⟨1, _⟩ => show win0_4.index t (1 : Fin 2) * 1024 + 1 * q.val = q.val; omega)
  rw [e]; exact V_v3_at m c k q

/-- The matrix window 6 has one block, the whole transposed matrix. -/
theorem wblk6_at (c : Dev nD) (t : Fin cfg0.N) (k q : Fin 1024) :
    iblk m c 6 t (ix2 k q) = tr (m ((c : Thread nD τ).loc main_arg6)) k q := by
  have F := idx_facts t
  show V m c main_v5 (((cfg0.win 6).blk t).view.emb (ix2 k q)) = _
  have e : ((cfg0.win 6).blk t).view.emb (ix2 k q) = ix2 k q := funext fun a => Fin.ext (by
    match a with
    | ⟨0, _⟩ => show win0_6.index t (0 : Fin 2) * 1024 + 1 * k.val = k.val; omega
    | ⟨1, _⟩ => show win0_6.index t (1 : Fin 2) * 1024 + 1 * q.val = q.val; omega)
  rw [e]; exact V_v5_at m c k q

/-- The matrix window 8 has one block, the whole transposed matrix. -/
theorem wblk8_at (c : Dev nD) (t : Fin cfg0.N) (k q : Fin 1024) :
    iblk m c 8 t (ix2 k q) = tr (m ((c : Thread nD τ).loc main_arg8)) k q := by
  have F := idx_facts t
  show V m c main_v7 (((cfg0.win 8).blk t).view.emb (ix2 k q)) = _
  have e : ((cfg0.win 8).blk t).view.emb (ix2 k q) = ix2 k q := funext fun a => Fin.ext (by
    match a with
    | ⟨0, _⟩ => show win0_8.index t (0 : Fin 2) * 1024 + 1 * k.val = k.val; omega
    | ⟨1, _⟩ => show win0_8.index t (1 : Fin 2) * 1024 + 1 * q.val = q.val; omega)
  rw [e]; exact V_v7_at m c k q

/-- The matrix window 10 has one block, the whole transposed matrix. -/
theorem wblk10_at (c : Dev nD) (t : Fin cfg0.N) (k q : Fin 1024) :
    iblk m c 10 t (ix2 k q) = tr (m ((c : Thread nD τ).loc main_arg10)) k q := by
  have F := idx_facts t
  show V m c main_v9 (((cfg0.win 10).blk t).view.emb (ix2 k q)) = _
  have e : ((cfg0.win 10).blk t).view.emb (ix2 k q) = ix2 k q := funext fun a => Fin.ext (by
    match a with
    | ⟨0, _⟩ => show win0_10.index t (0 : Fin 2) * 1024 + 1 * k.val = k.val; omega
    | ⟨1, _⟩ => show win0_10.index t (1 : Fin 2) * 1024 + 1 * q.val = q.val; omega)
  rw [e]; exact V_v9_at m c k q

/-- The matrix window 12 has one block, the whole transposed matrix. -/
theorem wblk12_at (c : Dev nD) (t : Fin cfg0.N) (k q : Fin 1024) :
    iblk m c 12 t (ix2 k q) = tr (m ((c : Thread nD τ).loc main_arg12)) k q := by
  have F := idx_facts t
  show V m c main_v11 (((cfg0.win 12).blk t).view.emb (ix2 k q)) = _
  have e : ((cfg0.win 12).blk t).view.emb (ix2 k q) = ix2 k q := funext fun a => Fin.ext (by
    match a with
    | ⟨0, _⟩ => show win0_12.index t (0 : Fin 2) * 1024 + 1 * k.val = k.val; omega
    | ⟨1, _⟩ => show win0_12.index t (1 : Fin 2) * 1024 + 1 * q.val = q.val; omega)
  rw [e]; exact V_v11_at m c k q

/-- The bias window 3 has one block, the whole bias row. -/
theorem bblk3_at (c : Dev nD) (t : Fin cfg0.N) (q : Fin 1024) :
    iblk m c 3 t (ix2 (0 : Fin 1) q) = vec (m ((c : Thread nD τ).loc main_arg3)) q := by
  have F := idx_facts t
  show V m c main_v12 (((cfg0.win 3).blk t).view.emb (ix2 (0 : Fin 1) q)) = _
  have e : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 1024 + 1 * q.val = q.val; omega)
  rw [e]; exact V_v12_at m c q

/-- The bias window 5 has one block, the whole bias row. -/
theorem bblk5_at (c : Dev nD) (t : Fin cfg0.N) (q : Fin 1024) :
    iblk m c 5 t (ix2 (0 : Fin 1) q) = vec (m ((c : Thread nD τ).loc main_arg5)) q := by
  have F := idx_facts t
  show V m c main_v13 (((cfg0.win 5).blk t).view.emb (ix2 (0 : Fin 1) q)) = _
  have e : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 1024 + 1 * q.val = q.val; omega)
  rw [e]; exact V_v13_at m c q

/-- The bias window 7 has one block, the whole bias row. -/
theorem bblk7_at (c : Dev nD) (t : Fin cfg0.N) (q : Fin 1024) :
    iblk m c 7 t (ix2 (0 : Fin 1) q) = vec (m ((c : Thread nD τ).loc main_arg7)) q := by
  have F := idx_facts t
  show V m c main_v14 (((cfg0.win 7).blk t).view.emb (ix2 (0 : Fin 1) q)) = _
  have e : ((cfg0.win 7).blk t).view.emb (ix2 (0 : Fin 1) q) = ix2 (0 : Fin 1) q := funext fun a => Fin.ext (by
    match a with
    | ⟨0, _⟩ => show win0_7.index t (0 : Fin 2) * 1 + 1 * 0 = 0; omega
    | ⟨1, _⟩ => show win0_7.index t (1 : Fin 2) * 1024 + 1 * q.val = q.val; omega)
  rw [e]; exact V_v14_at m c q

/-- The bias window 9 has one block, the whole bias row. -/
theorem bblk9_at (c : Dev nD) (t : Fin cfg0.N) (q : Fin 1024) :
    iblk m c 9 t (ix2 (0 : Fin 1) q) = vec (m ((c : Thread nD τ).loc main_arg9)) q := by
  have F := idx_facts t
  show V m c main_v15 (((cfg0.win 9).blk t).view.emb (ix2 (0 : Fin 1) q)) = _
  have e : ((cfg0.win 9).blk t).view.emb (ix2 (0 : Fin 1) q) = ix2 (0 : Fin 1) q := funext fun a => Fin.ext (by
    match a with
    | ⟨0, _⟩ => show win0_9.index t (0 : Fin 2) * 1 + 1 * 0 = 0; omega
    | ⟨1, _⟩ => show win0_9.index t (1 : Fin 2) * 1024 + 1 * q.val = q.val; omega)
  rw [e]; exact V_v15_at m c q

/-- The bias window 11 has one block, the whole bias row. -/
theorem bblk11_at (c : Dev nD) (t : Fin cfg0.N) (q : Fin 1024) :
    iblk m c 11 t (ix2 (0 : Fin 1) q) = vec (m ((c : Thread nD τ).loc main_arg11)) q := by
  have F := idx_facts t
  show V m c main_v16 (((cfg0.win 11).blk t).view.emb (ix2 (0 : Fin 1) q)) = _
  have e : ((cfg0.win 11).blk t).view.emb (ix2 (0 : Fin 1) q) = ix2 (0 : Fin 1) q := funext fun a => Fin.ext (by
    match a with
    | ⟨0, _⟩ => show win0_11.index t (0 : Fin 2) * 1 + 1 * 0 = 0; omega
    | ⟨1, _⟩ => show win0_11.index t (1 : Fin 2) * 1024 + 1 * q.val = q.val; omega)
  rw [e]; exact V_v16_at m c q

/-- The bias window 13 has one block, the whole bias row. -/
theorem bblk13_at (c : Dev nD) (t : Fin cfg0.N) (q : Fin 1024) :
    iblk m c 13 t (ix2 (0 : Fin 1) q) = vec (m ((c : Thread nD τ).loc main_arg13)) q := by
  have F := idx_facts t
  show V m c main_v17 (((cfg0.win 13).blk t).view.emb (ix2 (0 : Fin 1) q)) = _
  have e : ((cfg0.win 13).blk t).view.emb (ix2 (0 : Fin 1) q) = ix2 (0 : Fin 1) q := funext fun a => Fin.ext (by
    match a with
    | ⟨0, _⟩ => show win0_13.index t (0 : Fin 2) * 1 + 1 * 0 = 0; omega
    | ⟨1, _⟩ => show win0_13.index t (1 : Fin 2) * 1024 + 1 * q.val = q.val; omega)
  rw [e]; exact V_v17_at m c q

/-- WHAT POINT `t` WRITES BACK is block `t` of `G` of the argument arrays. -/
theorem flushed_eq (c : Dev nD) (t : Fin cfg0.N) :
    (dats m 0 c).flushed 14 t = ((cfg0.win 14).blk t).view.read (Elt Ideal) (Garr m c) := by
  rw [Value.flushed14]
  unfold out0_14
  rw [View.canon_unit_zero hz]
  simp only [View.ld_unit_zero (S := S512x1024) hz, View.ld_unit_zero (S := S1024x1024) hz, View.ld_unit_zero (S := S1x1024) hz]
  funext j
  have F := idx_facts t
  refine stored_eq_G (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    j (((cfg0.win 14).blk t).view.emb j) ?_ (act0_row m c t j) (act1_row m c t j)
    (wblk2_at m c t) (wblk4_at m c t) (wblk6_at m c t) (wblk8_at m c t) (wblk10_at m c t) (wblk12_at m c t)
    (bblk3_at m c t) (bblk5_at m c t) (bblk7_at m c t) (bblk9_at m c t) (bblk11_at m c t) (bblk13_at m c t)
  show win0_14.index t (1 : Fin 2) * 1024 + 1 * (j 1).val = (j 1).val
  omega

/-! ## The blocks tile the array -/

/-- An index of the result array is in point `t`'s block iff each coordinate is in the block's range on its axis. -/
theorem mem_blk (t : Fin cfg0.N) (i : S16384x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v18).slice (win0_14.rect t)).set ↔ _
  rw [View.set_slice_whole, Rect.mem_set_unit]
  exact Iff.rfl

/-- Row `r` of the result is written back by point `r / 512`. -/
theorem cover (i : S16384x1024.Idx) :
    ∃ t : Fin cfg0.N, (cfg0.win 14).flush t = true ∧ i ∈ ((cfg0.win 14).blk t).view.set := by
  have hi0 : (i 0).val < 16384 := (i 0).isLt
  have hi1 : (i 1).val < 1024 := (i 1).isLt
  obtain ⟨t, ht⟩ : ∃ t : Fin cfg0.N, t.val = (i 0).val / 512 := ⟨⟨(i 0).val / 512, by show _ < 32; omega⟩, rfl⟩
  have F := idx_facts t
  refine ⟨t, flush0_14 t, ?_⟩
  rw [mem_blk]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1024 ≤ (i 1).val ∧ (i 1).val < win0_14.index t (1 : Fin 2) * 1024 + 1024; omega

/-- THE RESULT ARRAY after the run is `G` of the argument arrays. -/
theorem final (c : Dev nD) : (dats m 0 c).arrAt 14 cfg0.N = Garr m c :=
  (dats m 0 c).arrAt_eq_of_cover 14 (Garr m c) (fun t _ => flushed_eq m c t) cover

/-! ## The run, read -/

/-- Every weakly fair execution of the idealized kernel program terminates with the result array at `G` of the
    argument arrays and the arguments unchanged. -/
theorem run : θ_run defs (onTc (τ := τ) (main (F := Ideal))) ⟨m, fun _ => 0, ρ⟩ fun r => ∀ c : Dev nD,
      r.2.mem ((c : Thread nD τ).loc main_v18) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.RefRow.lean ====
/-
  The reference's result, read at one element.

  The reference computes the new state of all 16384 rows at once with host operations. Read at the element
  `i = (p, q)` on the extended reals:

  * each `dot_general` of an activation array with a transposed weight matrix is the sum over the feature `k` of the
    activation at `(p, k)` times the stored weight at `(q, k)`: row `p` against the cell's matrix column `q`
    (`dot_v1` … `dot_v41`);
  * each bias, broadcast in two steps to the full array, is its entry at `q` (`bias_v3` … `bias_v44`);
  * each gate's pre-activation adds the first bias between the two products, which is `Cell.pre` by commutativity
    and associativity of the sum (`Cell.pre_bias_between`);
  * the logistic function is spelled `1 / (1 + exp (-z))` with the float pattern of 1.0 (`Cell.logistic_spelled`).

  So the result at `i` is `Cell.row` of row `p` of the input and of the state at feature `q`: the function `Cell.G`.
-/
import proofs.«147010_j40621800686224_1_alg».proof.Proof.Gen.ReferenceIdeal.Read
import proofs.«147010_j40621800686224_1_alg».proof.Proof.Cell

noncomputable section

open scoped BigOperators

namespace Cert.ReferenceIdeal.RowValue

open Cert.ReferenceIdeal Cert.ReferenceIdeal.Read Cert.Cell Idealize.ShloMosaic Idealize.ShloMosaic.ValueIdx

/-! ## The six products and the six biases -/

theorem dot_v1 (x0 : (⟨S16384x1024, .f32⟩ : BufTy).Contents (Elt Ideal)) (x2 : (⟨S1024x1024, .f32⟩ : BufTy).Contents (Elt Ideal)) (i : S16384x1024.Idx) :
    val_main_v1 (F := Ideal) x0 x2 i = ∑ k : Fin 1024, rowOf x0 (i 0) k * tr x2 k (i 1) := by
  rw [val_main_v1_apply]
  refine Finset.sum_congr rfl fun k _ => ?_
  rw [val_main_v0_apply, ix2_of (lidx_main_v1 i k) (i 0) k rfl rfl, ix2_of (idx_main_v0 (ridx_main_v1 i k)) (i 1) k rfl rfl]

theorem dot_v6 (x1 : (⟨S16384x1024, .f32⟩ : BufTy).Contents (Elt Ideal)) (x4 : (⟨S1024x1024, .f32⟩ : BufTy).Contents (Elt Ideal)) (i : S16384x1024.Idx) :
    val_main_v6 (F := Ideal) x1 x4 i = ∑ k : Fin 1024, rowOf x1 (i 0) k * tr x4 k (i 1) := by
  rw [val_main_v6_apply]
  refine Finset.sum_congr rfl fun k _ => ?_
  rw [val_main_v5_apply, ix2_of (lidx_main_v6 i k) (i 0) k rfl rfl, ix2_of (idx_main_v5 (ridx_main_v6 i k)) (i 1) k rfl rfl]

theorem dot_v18 (x0 : (⟨S16384x1024, .f32⟩ : BufTy).Contents (Elt Ideal)) (x6 : (⟨S1024x1024, .f32⟩ : BufTy).Contents (Elt Ideal)) (i : S16384x1024.Idx) :
    val_main_v18 (F := Ideal) x0 x6 i = ∑ k : Fin 1024, rowOf x0 (i 0) k * tr x6 k (i 1) := by
  rw [val_main_v18_apply]
  refine Finset.sum_congr rfl fun k _ => ?_
  rw [val_main_v17_apply, ix2_of (lidx_main_v18 i k) (i 0) k rfl rfl, ix2_of (idx_main_v17 (ridx_main_v18 i k)) (i 1) k rfl rfl]

theorem dot_v23 (x1 : (⟨S16384x1024, .f32⟩ : BufTy).Contents (Elt Ideal)) (x8 : (⟨S1024x1024, .f32⟩ : BufTy).Contents (Elt Ideal)) (i : S16384x1024.Idx) :
    val_main_v23 (F := Ideal) x1 x8 i = ∑ k : Fin 1024, rowOf x1 (i 0) k * tr x8 k (i 1) := by
  rw [val_main_v23_apply]
  refine Finset.sum_congr rfl fun k _ => ?_
  rw [val_main_v22_apply, ix2_of (lidx_main_v23 i k) (i 0) k rfl rfl, ix2_of (idx_main_v22 (ridx_main_v23 i k)) (i 1) k rfl rfl]

theorem dot_v35 (x0 : (⟨S16384x1024, .f32⟩ : BufTy).Contents (Elt Ideal)) (x10 : (⟨S1024x1024, .f32⟩ : BufTy).Contents (Elt Ideal)) (i : S16384x1024.Idx) :
    val_main_v35 (F := Ideal) x0 x10 i = ∑ k : Fin 1024, rowOf x0 (i 0) k * tr x10 k (i 1) := by
  rw [val_main_v35_apply]
  refine Finset.sum_congr rfl fun k _ => ?_
  rw [val_main_v34_apply, ix2_of (lidx_main_v35 i k) (i 0) k rfl rfl, ix2_of (idx_main_v34 (ridx_main_v35 i k)) (i 1) k rfl rfl]

theorem bias_v3 (x3 : (⟨S1024, .f32⟩ : BufTy).Contents (Elt Ideal)) (i : S16384x1024.Idx) : val_main_v3 (F := Ideal) x3 i = vec x3 (i 1) := by
  rw [val_main_v3_apply, val_main_v2_apply, ix1_of (idx_main_v2 (idx_main_v3 i)) (i 1) rfl]

theorem bias_v9 (x5 : (⟨S1024, .f32⟩ : BufTy).Contents (Elt Ideal)) (i : S16384x1024.Idx) : val_main_v9 (F := Ideal) x5 i = vec x5 (i 1) := by
  rw [val_main_v9_apply, val_main_v8_apply, ix1_of (idx_main_v8 (idx_main_v9 i)) (i 1) rfl]

theorem bias_v20 (x7 : (⟨S1024, .f32⟩ : BufTy).Contents (Elt Ideal)) (i : S16384x1024.Idx) : val_main_v20 (F := Ideal) x7 i = vec x7 (i 1) := by
  rw [val_main_v20_apply, val_main_v19_apply, ix1_of (idx_main_v19 (idx_main_v20 i)) (i 1) rfl]

theorem bias_v26 (x9 : (⟨S1024, .f32⟩ : BufTy).Contents (Elt Ideal)) (i : S16384x1024.Idx) : val_main_v26 (F := Ideal) x9 i = vec x9 (i 1) := by
  rw [val_main_v26_apply, val_main_v25_apply, ix1_of (idx_main_v25 (idx_main_v26 i)) (i 1) rfl]

theorem bias_v37 (x11 : (⟨S1024, .f32⟩ : BufTy).Contents (Elt Ideal)) (i : S16384x1024.Idx) : val_main_v37 (F := Ideal) x11 i = vec x11 (i 1) := by
  rw [val_main_v37_apply, val_main_v36_apply, ix1_of (idx_main_v36 (idx_main_v37 i)) (i 1) rfl]

theorem bias_v44 (x13 : (⟨S1024, .f32⟩ : BufTy).Contents (Elt Ideal)) (i : S16384x1024.Idx) : val_main_v44 (F := Ideal) x13 i = vec x13 (i 1) := by
  rw [val_main_v44_apply, val_main_v43_apply, ix1_of (idx_main_v43 (idx_main_v44 i)) (i 1) rfl]

/-! ## The two gates -/

/-- The reset gate's pre-activation at `i`. -/
theorem reset_pre (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (i : S16384x1024.Idx) :
    val_main_v10 (F := Ideal) x0 x1 x2 x3 x4 x5 i
      = pre (rowOf x0 (i 0)) (rowOf x1 (i 0)) (tr x2) (tr x4) (vec x3) (vec x5) (i 1) := by
  rw [val_main_v10_apply, val_main_v7_apply, val_main_v4_apply, dot_v1, dot_v6, bias_v3, bias_v9]
  exact pre_bias_between _ _ _ _ _ _ _

/-- The reset gate at `i`. -/
theorem reset_at (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (i : S16384x1024.Idx) :
    val_main_v16 (F := Ideal) x0 x1 x2 x3 x4 x5 i
      = reset (rowOf x0 (i 0)) (rowOf x1 (i 0)) (tr x2) (tr x4) (vec x3) (vec x5) (i 1) := by
  rw [val_main_v16_apply, val_main_v15_apply, val_main_cst_0_apply, val_main_v14_apply, val_main_v13_apply,
    val_main_cst_apply, val_main_v12_apply, val_main_v11_apply, reset_pre]
  exact logistic_spelled _

/-- The update gate's pre-activation at `i`. -/
theorem update_pre (x0 x1 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (i : S16384x1024.Idx) :
    val_main_v27 (F := Ideal) x0 x1 x6 x7 x8 x9 i
      = pre (rowOf x0 (i 0)) (rowOf x1 (i 0)) (tr x6) (tr x8) (vec x7) (vec x9) (i 1) := by
  rw [val_main_v27_apply, val_main_v24_apply, val_main_v21_apply, dot_v18, dot_v23, bias_v20, bias_v26]
  exact pre_bias_between _ _ _ _ _ _ _

/-- The update gate at `i`. -/
theorem update_at (x0 x1 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (i : S16384x1024.Idx) :
    val_main_v33 (F := Ideal) x0 x1 x6 x7 x8 x9 i
      = Ideal.logistic (pre (rowOf x0 (i 0)) (rowOf x1 (i 0)) (tr x6) (tr x8) (vec x7) (vec x9) (i 1)) := by
  rw [val_main_v33_apply, val_main_v32_apply, val_main_cst_2_apply, val_main_v31_apply, val_main_v30_apply,
    val_main_cst_1_apply, val_main_v29_apply, val_main_v28_apply, update_pre]
  exact logistic_spelled _

/-! ## The candidate state -/

/-- The product of the gated state with the last matrix: the state row times the reset gate, feature by feature,
    against the cell's matrix column. -/
theorem dot_v41 (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x12 : (⟨S1024x1024, .f32⟩ : BufTy).Contents (Elt Ideal)) (i : S16384x1024.Idx) :
    val_main_v41 (F := Ideal) x0 x1 x2 x3 x4 x5 x12 i
      = ∑ k : Fin 1024, (rowOf x1 (i 0) k * reset (rowOf x0 (i 0)) (rowOf x1 (i 0)) (tr x2) (tr x4) (vec x3) (vec x5) k)
          * tr x12 k (i 1) := by
  rw [val_main_v41_apply]
  refine Finset.sum_congr rfl fun k _ => ?_
  rw [ix2_of (lidx_main_v41 i k) (i 0) k rfl rfl, val_main_v39_apply, reset_at, val_main_v40_apply,
    ix2_of (idx_main_v40 (ridx_main_v41 i k)) (i 1) k rfl rfl]
  rfl

/-- The candidate's pre-activation at `i`. -/
theorem cand_pre (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x10 : (⟨S1024x1024, .f32⟩ : BufTy).Contents (Elt Ideal)) (x11 : (⟨S1024, .f32⟩ : BufTy).Contents (Elt Ideal))
    (x12 : (⟨S1024x1024, .f32⟩ : BufTy).Contents (Elt Ideal)) (x13 : (⟨S1024, .f32⟩ : BufTy).Contents (Elt Ideal)) (i : S16384x1024.Idx) :
    val_main_v45 (F := Ideal) x0 x1 x2 x3 x4 x5 x10 x11 x12 x13 i
      = pre (rowOf x0 (i 0))
          (fun k => rowOf x1 (i 0) k * reset (rowOf x0 (i 0)) (rowOf x1 (i 0)) (tr x2) (tr x4) (vec x3) (vec x5) k)
          (tr x10) (tr x12) (vec x11) (vec x13) (i 1) := by
  rw [val_main_v45_apply, val_main_v42_apply, val_main_v38_apply, dot_v35, dot_v41, bias_v37, bias_v44]
  exact pre_bias_between _ _ _ _ _ _ _

/-! ## The result -/

/-- THE REFERENCE'S RESULT is the cell applied to every row. -/
theorem result_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) :
    val_main_v51 (F := Ideal) x0 x1 x2 x3 x4 x5 x6 x7 x8 x9 x10 x11 x12 x13
      = G x0 x1 x2 x3 x4 x5 x6 x7 x8 x9 x10 x11 x12 x13 := by
  funext i
  rw [val_main_v51_apply, val_main_v49_apply, val_main_v48_apply, val_main_v47_apply, val_main_cst_3_apply,
    val_main_v50_apply, val_main_v46_apply, update_at, cand_pre]
  have hi : x1 i = rowOf x1 (i 0) (i 1) := congrArg x1 (eq_ix2 i)
  rw [hi]
  rfl

end Cert.ReferenceIdeal.RowValue

end
-- ==== Proof.lean ====
/-
  A gated recurrent cell: the tiled kernel against the whole-array reference.

  Both programs compute, for each of 16384 rows of an input `x` and a previous state `h` (1024 features each),

      r = σ (x Wrᵀ + h Urᵀ + bWr + bUr),   u = σ (x Wuᵀ + h Uuᵀ + bWu + bUu),
      c = tanh (x Wᵀ + (h ⊙ r) Uᵀ + bW + bU),   new state = (1 - u) ⊙ h + u ⊙ c.

  The kernel works on 32 blocks of 512 rows; it narrows the activations and the transposed weights to bf16 before
  each matrix product, adds both biases after both products, and applies the logistic function as one operation.
  The reference works on the whole arrays in f32, adds a gate's first bias between its two products, and spells the
  logistic function `1 / (1 + exp (-z))`.

  On the extended reals a change of float format is the identity, a matrix product is the sum over the contracted
  feature, the logistic operation is that spelled expression, and addition is commutative and associative at the
  infinities too. So each program's result is one function `Cell.G` of the argument arrays, index by index: the
  kernel's because the block a grid point writes back is a block of `G` and the 32 blocks tile the rows
  (Proof/Body.lean, Proof/Blocks.lean), the reference's by reading its operations at an index (Proof/RefRow.lean).
  The equality uses no finiteness of the inputs. The idealization rewrote no operation, so nothing is to be
  preserved beyond the program's own text.
-/
import proofs.«147010_j40621800686224_1_alg».proof.Defs
import proofs.«147010_j40621800686224_1_alg».proof.Proof.Gen.Kernel
import proofs.«147010_j40621800686224_1_alg».proof.Proof.Gen.Kernel.Skeleton
import proofs.«147010_j40621800686224_1_alg».proof.Proof.Gen.Kernel.Launch
import proofs.«147010_j40621800686224_1_alg».proof.Proof.Gen.Kernel.Points
import proofs.«147010_j40621800686224_1_alg».proof.Proof.Gen.Kernel.Frame
import proofs.«147010_j40621800686224_1_alg».proof.Proof.Gen.KernelIdeal
import proofs.«147010_j40621800686224_1_alg».proof.Proof.Gen.KernelIdeal.Skeleton
import proofs.«147010_j40621800686224_1_alg».proof.Proof.Gen.KernelIdeal.Launch
import proofs.«147010_j40621800686224_1_alg».proof.Proof.Gen.KernelIdeal.Points
import proofs.«147010_j40621800686224_1_alg».proof.Proof.Gen.KernelIdeal.Frame
import proofs.«147010_j40621800686224_1_alg».proof.Proof.Gen.ReferenceIdeal
import proofs.«147010_j40621800686224_1_alg».proof.Proof.Gen.Pre_finite_inputs
import proofs.«147010_j40621800686224_1_alg».proof.Proof.Gen.KernelIdeal.Value
import proofs.«147010_j40621800686224_1_alg».proof.Proof.Gen.ReferenceIdeal.Run
import proofs.«147010_j40621800686224_1_alg».proof.Proof.Gen.ReferenceIdeal.Read
import proofs.«147010_j40621800686224_1_alg».proof.Proof.Cell
import proofs.«147010_j40621800686224_1_alg».proof.Proof.Body
import proofs.«147010_j40621800686224_1_alg».proof.Proof.Blocks
import proofs.«147010_j40621800686224_1_alg».proof.Proof.RefRow
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at `Cell.G` of the argument arrays, which agree. -/
theorem algebraic : Cert.algebraic_KernelIdeal_ReferenceIdeal := by
  intro m ρ m' ρ' _ hagree
  refine ⟨fun c => Cert.KernelIdeal.Blocks.Garr m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v51_eq, Cert.ReferenceIdeal.RowValue.result_eq,
    h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
